-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 2
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  transposes_S512x512_p1_0_S512x512 : S512x512.Transposes [1, 0] S512x512
  reduces_S512x512_S512 : S512x512.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S_, .f32⟩
  | .hbm, ⟨3, _⟩ => ⟨S4096, .f32⟩
  | .hbm, ⟨4, _⟩ => ⟨S4096x4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .i1⟩
  | .hbm, ⟨27, _⟩ => ⟨S4096x4096, .f32⟩
  | .hbm, ⟨28, _⟩ => ⟨S_, .f32⟩
  | .hbm, ⟨29, _⟩ => ⟨S_, .f32⟩
  | .hbm, ⟨30, _⟩ => ⟨S4096x4096, .f32⟩
  | .hbm, ⟨31, _⟩ => ⟨S4096x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x512_S4096x512_S4096x4096_1_1_0_0_n_n_wf : DotDims.WF S4096x512 S4096x512 S4096x4096 [1] [1] [0] [0] [] []

variable [Facts₀]

def dot_S4096x512_S4096x512_S4096x4096_1_1_0_0_n_n : DotDims S4096x512 S4096x512 S4096x4096 where
  lhsContracting := [1]
  rhsContracting := [1]
  lhsNonContracting := [0]
  rhsNonContracting := [0]
  lhsBatch := []
  rhsBatch := []
  wf := dot_S4096x512_S4096x512_S4096x4096_1_1_0_0_n_n_wf

class Facts : Prop extends Facts₀ where

variable [Facts]
-- ==== Proof.LibLaunchShared.lean ====
/-
  A launch of one pipelined kernel region whose windows may stand on ONE array.

  The library's frame run asks that the windows' arrays be pairwise distinct buffers, so that each window
  holds its array outright. When two input windows read the same array (here: one matrix read once by rows
  for the left factor and once by rows for the right factor of a product with its own transpose) the array's
  full share has to be dealt among them. This file states the run with that dealing left as a hypothesis
  (`hsplit`): from the distinct buffers behind the windows' arrays, each whole at the region's entry
  contents, to the proof data's arrays at the shares the data name. Everything else is routed as the
  library's own frame run routes it: the kernel keeps no semaphore of its own, the scoped buffers that no
  window stages reach the body's invariant, and every unscoped buffer that is no window's array passes the
  region by and is read back unchanged.

  The conclusion is the library's `FramePost`: every window's array at `Dat.arrAt … N`, every other
  unscoped buffer at its contents at the region's entry.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run of one kernel region whose windows may share arrays. `hsplit` deals the buffers behind the
    arrays, whole at the entry contents `V`, to the proof data's arrays at the data's shares; `hin` / `hout`
    take the scoped buffers no window stages into the body's invariant before the first point and back out of
    it after the last. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show _ ⊢ (scopedRest (cfgs p).spec c : sProp 𝕄) from by iintro ⟨-, HR⟩; iexact HR).trans (hin c))
    (hout := fun c => (hout c).trans (by
      iintro HR
      isplitr; · iempintro
      iexact HR))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.KernelFrame.lean ====
/-
  The frame of the pairwise-distance kernel: it runs to the end, faults nowhere, leaves the matrix `x` as it found it
  and ends with the output array holding, tile by tile, what the body computes from two row tiles of `x`.

  The kernel region has three windows on an 8 × 8 grid. Windows 0 and 1 both stand on the one input matrix
  `x : [4096, 512]`: at grid point `(i, j)` the first stages the row tile `i` (rows `512 i … 512 i + 511`) and the
  second the row tile `j`. Window 2 stands on the output `[4096, 4096]` and writes back the `512 × 512` tile `(i, j)`.
  The body loads the two staged tiles, loads the output's staging buffer (a value it never uses) and stores one whole
  tile computed from the two loaded ones; it touches nothing else.

  Because two input windows read one array, the array's full share is dealt between them: the left half to window 0
  and the right half to window 1. Reading needs no more than a share, and the array is given back whole at the end.
  The output array is held outright. No scoped buffer besides the staging buffers exists and the body keeps no
  semaphore, so the region invariant is just the (empty) rest of the scoped buffers.

  Everything here is generic in the float instance `F`: the same text is the frame at the word-level instance and at
  the ideal one.
-/
import proofs.«142421_j46308337386061_1_alg».proof.Proof.Gen.Kernel.Launch
import proofs.«142421_j46308337386061_1_alg».proof.Proof.Gen.Kernel.Skeleton
import proofs.«142421_j46308337386061_1_alg».proof.Proof.Gen.Kernel.Points
import proofs.«142421_j46308337386061_1_alg».proof.Proof.LibLaunchShared
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- What core `c`'s buffers hold when the region is entered: the launch memory, the region being all of @main. -/
abbrev entry (c : Dev nD) (b : Ref sig .tc) : Buf (Elt F) ((c : Thread nD τ).loc b) := m ((c : Thread nD τ).loc b)

/-- @main is the one kernel region. -/
theorem main_is_region (𝒱₀ : Variants) :
    Pipeline.HMain (Ix := Unit) (Name := ℕ) (U := UR sig nD τ) (Lvl := ℕ) cfgs 0 defs₀ 𝒱₀ m (main (F := F)) (entry m) :=
  Pipeline.hmain_region cfgs 0 defs₀ 𝒱₀ m main fun c => (main_chain c).trans rfl

/-- Window `w`'s tile at grid point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! ## One run of the body -/

/-- The whole staging tile: the one rectangle every load and the store of the body go through. -/
abbrev whole : Rect S512x512 := Rect.unit (s := S512x512) ![0, 0] S512x512.size inb_S512x512_S512x512_0_0

/-- The output's staging buffer after the body, from the two loaded tiles: its one store, of the body's arithmetic. -/
def outTile (x0 x1 : Vec F S512x512 .f32) : Vec F S512x512 .f32 :=
  View.canon [⟨whole, k0_pay1 (View.ld x0 whole) (View.ld x1 whole)⟩]

/-- The one store covers the buffer. -/
theorem store_covers (p0 : Vec F S512x512 .f32) (y : S512x512.Idx) :
    ∃ pc ∈ ([⟨whole, p0⟩] : List (View.Piece (Elt F) S512x512 .f32)), y ∈ pc.1.set :=
  View.cover_of_tiled [⟨whole, p0⟩] S512x512.size (by rfl) y

set_option maxHeartbeats 1000000 in
/-- The body on whole staging buffers — the inputs' at contents `x0`, `x1`, the output's at anything — runs to a
    state with the inputs' as they were and the output's at `outTile x0 x1`. -/
theorem body_triple (c : Dev nD) (E : Set ℕ) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole)
    (x0 x1 : Vec F S512x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outTile x0 x1)) -∗ K ⟨⟩))
      ⊢ wp frame (wpE (defs₀ (F := F)) Variants.none c none) E (cc0__cdist_kernel i arg2 harg2 arg3 harg3 arg4 harg4) K := by
  simp only [cc0__cdist_kernel_eq_skeleton]; unfold cc0__cdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The proof data of the pipeline -/

/-- On core `c`: the arrays as the region finds them; after the body at point `t` each input's staging buffer still at
    its tile and the output's at the body's tile of the two; the invariant the (empty) rest of the scoped buffers; the
    input matrix's share dealt left and right between the two windows that read it; nothing owed. -/
def dats (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => outTile (tile m c 0 t) (tile m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = entry m c (Pipeline.arrRef spec0 w) := by
  dsimp only [dats]

theorem after_0 (c : Dev nD) (t : Fin cfg0.N) : (dats m 0 c).after 0 t = tile m c 0 t := by dsimp only [dats]
theorem after_1 (c : Dev nD) (t : Fin cfg0.N) : (dats m 0 c).after 1 t = tile m c 1 t := by dsimp only [dats]
theorem after_2 (c : Dev nD) (t : Fin cfg0.N) : (dats m 0 c).after 2 t = outTile (tile m c 0 t) (tile m c 1 t) := by dsimp only [dats]

/-- The first input's current staging buffer holds its tile at every point, fetched there or not: where it is not
    fetched the row-tile index has not moved since the point before. -/
theorem before_0 (c : Dev nD) (t : Fin cfg0.N) (d) : (dats m 0 c).before 0 t d = tile m c 0 t :=
  ((dats m 0 c).before_in_eq_fetched 0 rfl (fun _ => rfl) (fun _ _ _ => rfl)
      (fun t => by rw [after_0]; unfold Dat.blockOf tile; rw [A_eq]; try rfl) t d).trans
    (by unfold Dat.fetched Dat.blockOf tile; rw [A_eq]; try rfl)
/-- The second input's likewise (it is fetched at every point). -/
theorem before_1 (c : Dev nD) (t : Fin cfg0.N) (d) : (dats m 0 c).before 1 t d = tile m c 1 t :=
  ((dats m 0 c).before_in_eq_fetched 1 rfl (fun _ => rfl) (fun _ _ _ => rfl)
      (fun t => by rw [after_1]; unfold Dat.blockOf tile; rw [A_eq]; try rfl) t d).trans
    (by unfold Dat.fetched Dat.blockOf tile; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' staging buffers hold their tiles, so one run of the body applies; the invariant
    and what the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (body_triple c Set.univ (grid0.coords t) _ _ _ _ _ _ (tile m c 0 t) (tile m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at m c t

/-! ## Dealing the input matrix between its two readers -/

/-- The buffers behind the windows' arrays are two: the input matrix and the output. -/
theorem arr_bufs : (Finset.univ.image (Pipeline.arrRef spec0) : Finset (Ref sig .tc)) = {main_arg0, main_v0} := by decide

/-- The windows' arrays, each a whole buffer, at the share the proof data gives its window. -/
theorem arrays_whole (c : Dev nD) (G : (w : Fin cfg0.W) → Buf (Elt F) ((cfg0.win w).arr.view.loc (c.tc : Thread nD τ))) :
    ((dats m 0 c).arrays G : sProp 𝕄)
      = bigSep Finset.univ fun w : Fin cfg0.W => (((c.tc : Thread nD τ).loc (Pipeline.arrRef spec0 w)) ↦{(dats m 0 c).share w} G w : sProp 𝕄) := by
  unfold Dat.arrays
  exact bigSep_congr fun w _ => by rw [(arr_whole0 w).set_eq_univ]

/-- At the region's entry: the input matrix twice, at the left and the right half of its share, and the output whole. -/
theorem arrays_entry (c : Dev nD) :
    ((dats m 0 c).arrays ((dats m 0 c).arrAt · 0) : sProp 𝕄)
      = iprop((((c.tc : Thread nD τ).loc main_arg0) ↦{fullShare.left} entry m c main_arg0)
          ∗ (((c.tc : Thread nD τ).loc main_arg0) ↦{fullShare.right} entry m c main_arg0)
          ∗ (((c.tc : Thread nD τ).loc main_v0) ↦{fullShare} entry m c main_v0)) := by
  rw [arrays_whole, bigSep_W0]
  rfl

/-- From the two buffers, each whole at its entry contents, to the three windows' arrays at the shares the proof data
    names: the input matrix's full share splits into its left and right halves, one per reading window. -/
theorem deal (c : Dev nD) :
    (Pipeline.arrBufs (Ix := Unit) (Name := ℕ) (U := UR sig nD τ) (Lvl := ℕ) spec0 c (entry m c) : sProp 𝕄)
      ⊢ (dats m 0 c).arrays ((dats m 0 c).arrAt · 0) := by
  have two_bufs : (Pipeline.arrBufs (Ix := Unit) (Name := ℕ) (U := UR sig nD τ) (Lvl := ℕ) spec0 c (entry m c) : sProp 𝕄)
      = iprop((((c.tc : Thread nD τ).loc main_arg0) ↦{fullShare} entry m c main_arg0)
          ∗ (((c.tc : Thread nD τ).loc main_v0) ↦{fullShare} entry m c main_v0)) := by
    unfold Pipeline.arrBufs
    rw [arr_bufs, bigSep_insert (by decide), bigSep_singleton]
    rfl
  rw [two_bufs, arrays_entry]
  iintro ⟨Hx, Ho⟩
  ihave Hx := (pointsTo_share (PosShare.mem_left_op_right fullShare)).1 $$ Hx
  icases Hx with ⟨Hx1, Hx2⟩
  isplitl [Hx1]; · iexact Hx1
  isplitl [Hx2]; · iexact Hx2
  iexact Ho

/-! ## The run -/

set_option backward.isDefEq.respectTransparency.types false in
/-- Every weakly fair execution of @main terminates, and every final state has each window's array at what the
    write-backs make of the proof data and nothing else of the unscoped memory changed. -/
theorem run : θ_run defs (onTc (τ := τ) (main (F := F))) (s₀ m ρ) (Pipeline.FramePost cfgs (dats m) 0 (entry m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := entry m) (hmain := main_is_region m Variants.none)
    (hsplit := deal m) (hin := fun _ => .rfl) (hout := fun _ => .rfl)

/-- The input matrix ends as it began: an input window's array is never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run m ρ)

/-- The same run with the output array named: after the last write-back it holds what the proof data's write-backs
    compute, and the input matrix is unchanged. -/
theorem run_named : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run defs _ _).mono (fun _ h c => ⟨(h c).1 2, ((h c).1 0).trans (((dats m 0 c).arrAt_in 0 rfl _).trans (A_eq m c 0))⟩) (run m ρ)

end Cert.Kernel.Frm

end
-- ==== Proof.KernelIdealFrame.lean ====
/-
  The frame of the pairwise-distance kernel: it runs to the end, faults nowhere, leaves the matrix `x` as it found it
  and ends with the output array holding, tile by tile, what the body computes from two row tiles of `x`.

  The kernel region has three windows on an 8 × 8 grid. Windows 0 and 1 both stand on the one input matrix
  `x : [4096, 512]`: at grid point `(i, j)` the first stages the row tile `i` (rows `512 i … 512 i + 511`) and the
  second the row tile `j`. Window 2 stands on the output `[4096, 4096]` and writes back the `512 × 512` tile `(i, j)`.
  The body loads the two staged tiles, loads the output's staging buffer (a value it never uses) and stores one whole
  tile computed from the two loaded ones; it touches nothing else.

  Because two input windows read one array, the array's full share is dealt between them: the left half to window 0
  and the right half to window 1. Reading needs no more than a share, and the array is given back whole at the end.
  The output array is held outright. No scoped buffer besides the staging buffers exists and the body keeps no
  semaphore, so the region invariant is just the (empty) rest of the scoped buffers.

  Everything here is generic in the float instance `F`: the same text is the frame at the word-level instance and at
  the ideal one.
-/
import proofs.«142421_j46308337386061_1_alg».proof.Proof.Gen.KernelIdeal.Launch
import proofs.«142421_j46308337386061_1_alg».proof.Proof.Gen.KernelIdeal.Skeleton
import proofs.«142421_j46308337386061_1_alg».proof.Proof.Gen.KernelIdeal.Points
import proofs.«142421_j46308337386061_1_alg».proof.Proof.LibLaunchShared
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- What core `c`'s buffers hold when the region is entered: the launch memory, the region being all of @main. -/
abbrev entry (c : Dev nD) (b : Ref sig .tc) : Buf (Elt F) ((c : Thread nD τ).loc b) := m ((c : Thread nD τ).loc b)

/-- @main is the one kernel region. -/
theorem main_is_region (𝒱₀ : Variants) :
    Pipeline.HMain (Ix := Unit) (Name := ℕ) (U := UR sig nD τ) (Lvl := ℕ) cfgs 0 defs₀ 𝒱₀ m (main (F := F)) (entry m) :=
  Pipeline.hmain_region cfgs 0 defs₀ 𝒱₀ m main fun c => (main_chain c).trans rfl

/-- Window `w`'s tile at grid point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! ## One run of the body -/

/-- The whole staging tile: the one rectangle every load and the store of the body go through. -/
abbrev whole : Rect S512x512 := Rect.unit (s := S512x512) ![0, 0] S512x512.size inb_S512x512_S512x512_0_0

/-- The output's staging buffer after the body, from the two loaded tiles: its one store, of the body's arithmetic. -/
def outTile (x0 x1 : Vec F S512x512 .f32) : Vec F S512x512 .f32 :=
  View.canon [⟨whole, k0_pay1 (View.ld x0 whole) (View.ld x1 whole)⟩]

/-- The one store covers the buffer. -/
theorem store_covers (p0 : Vec F S512x512 .f32) (y : S512x512.Idx) :
    ∃ pc ∈ ([⟨whole, p0⟩] : List (View.Piece (Elt F) S512x512 .f32)), y ∈ pc.1.set :=
  View.cover_of_tiled [⟨whole, p0⟩] S512x512.size (by rfl) y

set_option maxHeartbeats 1000000 in
/-- The body on whole staging buffers — the inputs' at contents `x0`, `x1`, the output's at anything — runs to a
    state with the inputs' as they were and the output's at `outTile x0 x1`. -/
theorem body_triple (c : Dev nD) (E : Set ℕ) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole)
    (x0 x1 : Vec F S512x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outTile x0 x1)) -∗ K ⟨⟩))
      ⊢ wp frame (wpE (defs₀ (F := F)) Variants.none c none) E (cc0__cdist_kernel i arg2 harg2 arg3 harg3 arg4 harg4) K := by
  simp only [cc0__cdist_kernel_eq_skeleton]; unfold cc0__cdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The proof data of the pipeline -/

/-- On core `c`: the arrays as the region finds them; after the body at point `t` each input's staging buffer still at
    its tile and the output's at the body's tile of the two; the invariant the (empty) rest of the scoped buffers; the
    input matrix's share dealt left and right between the two windows that read it; nothing owed. -/
def dats (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => outTile (tile m c 0 t) (tile m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = entry m c (Pipeline.arrRef spec0 w) := by
  dsimp only [dats]

theorem after_0 (c : Dev nD) (t : Fin cfg0.N) : (dats m 0 c).after 0 t = tile m c 0 t := by dsimp only [dats]
theorem after_1 (c : Dev nD) (t : Fin cfg0.N) : (dats m 0 c).after 1 t = tile m c 1 t := by dsimp only [dats]
theorem after_2 (c : Dev nD) (t : Fin cfg0.N) : (dats m 0 c).after 2 t = outTile (tile m c 0 t) (tile m c 1 t) := by dsimp only [dats]

/-- The first input's current staging buffer holds its tile at every point, fetched there or not: where it is not
    fetched the row-tile index has not moved since the point before. -/
theorem before_0 (c : Dev nD) (t : Fin cfg0.N) (d) : (dats m 0 c).before 0 t d = tile m c 0 t :=
  ((dats m 0 c).before_in_eq_fetched 0 rfl (fun _ => rfl) (fun _ _ _ => rfl)
      (fun t => by rw [after_0]; unfold Dat.blockOf tile; rw [A_eq]; try rfl) t d).trans
    (by unfold Dat.fetched Dat.blockOf tile; rw [A_eq]; try rfl)
/-- The second input's likewise (it is fetched at every point). -/
theorem before_1 (c : Dev nD) (t : Fin cfg0.N) (d) : (dats m 0 c).before 1 t d = tile m c 1 t :=
  ((dats m 0 c).before_in_eq_fetched 1 rfl (fun _ => rfl) (fun _ _ _ => rfl)
      (fun t => by rw [after_1]; unfold Dat.blockOf tile; rw [A_eq]; try rfl) t d).trans
    (by unfold Dat.fetched Dat.blockOf tile; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' staging buffers hold their tiles, so one run of the body applies; the invariant
    and what the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (body_triple c Set.univ (grid0.coords t) _ _ _ _ _ _ (tile m c 0 t) (tile m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at m c t

/-! ## Dealing the input matrix between its two readers -/

/-- The buffers behind the windows' arrays are two: the input matrix and the output. -/
theorem arr_bufs : (Finset.univ.image (Pipeline.arrRef spec0) : Finset (Ref sig .tc)) = {main_arg0, main_v0} := by decide

/-- The windows' arrays, each a whole buffer, at the share the proof data gives its window. -/
theorem arrays_whole (c : Dev nD) (G : (w : Fin cfg0.W) → Buf (Elt F) ((cfg0.win w).arr.view.loc (c.tc : Thread nD τ))) :
    ((dats m 0 c).arrays G : sProp 𝕄)
      = bigSep Finset.univ fun w : Fin cfg0.W => (((c.tc : Thread nD τ).loc (Pipeline.arrRef spec0 w)) ↦{(dats m 0 c).share w} G w : sProp 𝕄) := by
  unfold Dat.arrays
  exact bigSep_congr fun w _ => by rw [(arr_whole0 w).set_eq_univ]

/-- At the region's entry: the input matrix twice, at the left and the right half of its share, and the output whole. -/
theorem arrays_entry (c : Dev nD) :
    ((dats m 0 c).arrays ((dats m 0 c).arrAt · 0) : sProp 𝕄)
      = iprop((((c.tc : Thread nD τ).loc main_arg0) ↦{fullShare.left} entry m c main_arg0)
          ∗ (((c.tc : Thread nD τ).loc main_arg0) ↦{fullShare.right} entry m c main_arg0)
          ∗ (((c.tc : Thread nD τ).loc main_v0) ↦{fullShare} entry m c main_v0)) := by
  rw [arrays_whole, bigSep_W0]
  rfl

/-- From the two buffers, each whole at its entry contents, to the three windows' arrays at the shares the proof data
    names: the input matrix's full share splits into its left and right halves, one per reading window. -/
theorem deal (c : Dev nD) :
    (Pipeline.arrBufs (Ix := Unit) (Name := ℕ) (U := UR sig nD τ) (Lvl := ℕ) spec0 c (entry m c) : sProp 𝕄)
      ⊢ (dats m 0 c).arrays ((dats m 0 c).arrAt · 0) := by
  have two_bufs : (Pipeline.arrBufs (Ix := Unit) (Name := ℕ) (U := UR sig nD τ) (Lvl := ℕ) spec0 c (entry m c) : sProp 𝕄)
      = iprop((((c.tc : Thread nD τ).loc main_arg0) ↦{fullShare} entry m c main_arg0)
          ∗ (((c.tc : Thread nD τ).loc main_v0) ↦{fullShare} entry m c main_v0)) := by
    unfold Pipeline.arrBufs
    rw [arr_bufs, bigSep_insert (by decide), bigSep_singleton]
    rfl
  rw [two_bufs, arrays_entry]
  iintro ⟨Hx, Ho⟩
  ihave Hx := (pointsTo_share (PosShare.mem_left_op_right fullShare)).1 $$ Hx
  icases Hx with ⟨Hx1, Hx2⟩
  isplitl [Hx1]; · iexact Hx1
  isplitl [Hx2]; · iexact Hx2
  iexact Ho

/-! ## The run -/

set_option backward.isDefEq.respectTransparency.types false in
/-- Every weakly fair execution of @main terminates, and every final state has each window's array at what the
    write-backs make of the proof data and nothing else of the unscoped memory changed. -/
theorem run : θ_run defs (onTc (τ := τ) (main (F := F))) (s₀ m ρ) (Pipeline.FramePost cfgs (dats m) 0 (entry m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := entry m) (hmain := main_is_region m Variants.none)
    (hsplit := deal m) (hin := fun _ => .rfl) (hout := fun _ => .rfl)

/-- The input matrix ends as it began: an input window's array is never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run m ρ)

/-- The same run with the output array named: after the last write-back it holds what the proof data's write-backs
    compute, and the input matrix is unchanged. -/
theorem run_named : θ_run defs (onTc (τ := τ) (main (F := F))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run defs _ _).mono (fun _ h c => ⟨(h c).1 2, ((h c).1 0).trans (((dats m 0 c).arrAt_in 0 rfl _).trans (A_eq m c 0))⟩) (run m ρ)

end Cert.KernelIdeal.Frm

end
-- ==== Proof.Spec.lean ====
/-
  The pairwise Euclidean distance of the rows of a matrix, as one function of the matrix, on the extended reals.

  For two rows `a`, `b` of length 512 the squared distance is expanded as `|a|² + |b|² − 2·(a·b)`, clamped below at
  zero, and its square root taken where it is positive (the root of the stand-in value one is taken elsewhere and
  then discarded for zero). The distance matrix of `x : [4096, 512]` has, at `(n, m)`, that number for rows `n`
  and `m` of `x`. Every operation is the exact one on the extended reals and the three float literals (two, one,
  zero) are kept as their words, the same on both sides of the comparison this specification serves.
-/
import Idealize.ShloMosaic.PureOps.Ideal
import Idealize.ShloMosaic.Lib.ValueIdx

noncomputable section

namespace Cert.Dist

open Idealize.ShloMosaic Idealize.ShloMosaic.ValueIdx

/-- The word of the float `2.0`, `1.0` and `0.0` read on the extended reals. -/
abbrev two : EReal := Ideal.ofBits .f32 0x40000000#32
abbrev one : EReal := Ideal.ofBits .f32 0x3F800000#32
abbrev zero : EReal := Ideal.ofBits .f32 0x00000000#32

/-- The clamped squared distance of two rows from their squared norms and their inner product. -/
def sqDist (a b : Fin 512 → EReal) : EReal :=
  max (((∑ k : Fin 512, a k * a k) + (∑ k : Fin 512, b k * b k)) - two * (∑ k : Fin 512, a k * b k)) zero

/-- The guarded square root: the root where the argument is positive, zero elsewhere. -/
def safeSqrt (d : EReal) : EReal :=
  Scalar.select (FloatOps.cmpf (F := Ideal) (φ := .f32) .ogt d zero)
    (Ideal.sqrt (Scalar.select (FloatOps.cmpf (F := Ideal) (φ := .f32) .ogt d zero) d one)) zero

/-- The distance of two rows. -/
def rowDist (a b : Fin 512 → EReal) : EReal := safeSqrt (sqDist a b)

/-- The distance matrix of the rows of `x`. -/
def dist (x : (⟨2, ![4096, 512]⟩ : Shape).Idx → EReal) : (⟨2, ![4096, 4096]⟩ : Shape).Idx → EReal :=
  fun i => rowDist (fun k => x (ix2 (i 0) k)) (fun k => x (ix2 (i 1) k))

/-- The same on a pair of 512-row tiles: entry `(p, q)` is the distance of row `p` of the first and row `q` of the second. -/
def tileDist (xi xj : (⟨2, ![512, 512]⟩ : Shape).Idx → EReal) : (⟨2, ![512, 512]⟩ : Shape).Idx → EReal :=
  fun y => rowDist (fun k => xi (ix2 (y 0) k)) (fun k => xj (ix2 (y 1) k))

end Cert.Dist

end
-- ==== Proof.LibKeepdims.lean ====
/-
  Keepdims column forms and row-sum normalisation, read at an index (extended reals, the ideal instance).

  A row sum kept as a column — `[a] → [a, 1]` by a shape cast (a kernel) or by a `broadcast_in_dim` along axis 0 (the
  host) — and that column laid back over the columns of an `[a, b]` matrix — by a vector broadcast (a kernel) or a
  `broadcast_in_dim` along axes 0 and 1 (the host) — read, at `(i, j)`, the vector's entry `i`. With them, "divide every
  entry of a matrix by the sum of its row" is read at `(r, k)` as `x (r, k) / ∑ k', x (r, k')` in both spellings, and a plain
  `m × k` by `k × n` product accumulated into a zero splat (a kernel) or with no accumulator (the host) as
  `∑ c, A (a, c) * B (c, b)`.
-/
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

namespace Cert.LibKeepdims

open Idealize.ShloMosaic Idealize.ShloMosaic.ValueIdx

variable {α : Type}

/-- Over a rank-2 shape reduced along axis 1, the source index above row `r` with coordinate `k` on the dropped axis is `(r, k)`. -/
theorem lift_ix1 {a b : ℕ} (h : (⟨2, ![a, b]⟩ : Shape).Reduces [(1 : Fin 2)] ⟨1, ![a]⟩) (r : Fin a) (k : Fin b) :
    h.lift (ix1 r) k = ix2 r k :=
  funext fun c => Fin.ext (match c with | ⟨0, _⟩ => rfl | ⟨1, _⟩ => rfl)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over the columns of `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of an `[a]` vector along axis 0 of `[a, 1]` reads, at `(i, u)`, the vector at `i`. -/
theorem broadcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- The host's `broadcast_in_dim` of a column `[a, 1]` along axes 0 and 1 of `[a, b]` reads, at `(p, c)`, the column at row `p`. -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α)
    (p : Fin a) (c : Fin b) : broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-! ## Every entry divided by the sum of its row -/

/-- A kernel's spelling: the lane sum over axis 1 (accumulator the neutral zero), cast to a column, broadcast back over the
    columns, and the quotient — at `(r, k)` it is `y (r, k) / ∑ k', y (r, k')`. -/
theorem divRowSum_kernel_apply {a b : ℕ} (y : FVec Ideal ⟨2, ![a, b]⟩ .f32)
    (h : (⟨2, ![a, b]⟩ : Shape).Reduces [(1 : Fin 2)] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    divf y (broadcastTo ⟨2, ![a, b]⟩ (shapeCast ⟨2, ![a, 1]⟩ (multiReduction .add [(1 : Fin 2)] ⟨1, ![a]⟩ y 0x00000000#32 h hφ hacc) hc) hb) (ix2 r k)
      = Ideal.div (y (ix2 r k)) (∑ k' : Fin b, y (ix2 r k')) := by
  refine congrArg (Ideal.div (y (ix2 r k))) ?_
  refine (broadcastTo_a1_ab_apply _ hb r k).trans ?_
  refine (shapeCast_a_a1_apply _ hc r 0).trans ?_
  refine (Ideal.multiReduction_add_single y _ h hφ hacc (ix1 r)).trans ?_
  exact Finset.sum_congr rfl fun k' _ => congrArg y (lift_ix1 h r k')

/-- The host's spelling: `stablehlo.reduce` with add over axis 1 from an initial zero, `broadcast_in_dim` to a column and then
    over the matrix, and `stablehlo.divide` — the same quotient at `(r, k)`. -/
theorem divRowSum_host_apply {a b : ℕ} {u : Shape} (y : FVec Ideal ⟨2, ![a, b]⟩ .f32)
    (h' : (⟨2, ![a, b]⟩ : Shape).ReducesTo [(1 : Fin 2)] ⟨1, ![a]⟩) (h : (⟨2, ![a, b]⟩ : Shape).Reduces [(1 : Fin 2)] ⟨1, ![a]⟩)
    (hu : 0 < u.numel)
    (d1 : Fin 1 → Fin 2) (hd1 : d1 0 = 0) (hb1 : (⟨1, ![a]⟩ : Shape).BroadcastsInDim ⟨2, ![a, 1]⟩ d1)
    (d2 : Fin 2 → Fin 2) (hd20 : d2 0 = 0) (hd21 : d2 1 = 1) (hb2 : (⟨2, ![a, 1]⟩ : Shape).BroadcastsInDim ⟨2, ![a, b]⟩ d2)
    (r : Fin a) (k : Fin b) :
    Host.divf y (broadcastInDim ⟨2, ![a, b]⟩ d2 hb2 (broadcastInDim ⟨2, ![a, 1]⟩ d1 hb1
        (Host.reduceAdd y (constant (F := Ideal) u .f32 0x00000000#32) h' hu))) (ix2 r k)
      = Ideal.div (y (ix2 r k)) (∑ k' : Fin b, y (ix2 r k')) := by
  refine congrArg (Ideal.div (y (ix2 r k))) ?_
  refine (broadcastInDim_a1_ab_apply d2 hd20 hd21 hb2 _ r k).trans ?_
  refine (broadcastInDim_a_a1_apply d1 hd1 hb1 _ r 0).trans ?_
  show Ideal.hostReduceAdd h' y (Ideal.ofBits .f32 0x00000000#32) (ix1 r) = _
  rw [Ideal.hostReduceAdd_single h' h, Ideal.ofBits_zero_f32, zero_add]
  exact Finset.sum_congr rfl fun k' _ => congrArg y (lift_ix1 h r k')

/-! ## A plain matrix product at an index -/

/-- The host's `dot_general` with the plain dimension numbers (contract axis 1 of the left with axis 0 of the right), read at `(p, q)`. -/
theorem dotGeneral_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    Host.dotGeneral d prec A B (ix2 p q) = ∑ c : Fin k, A (ix2 p c) * B (ix2 c q) := by
  subst hd
  exact StackMember.dotGeneral_plain_apply prec A B p q

/-- A kernel's `tpu.matmul` with the plain dimension numbers into a zero splat, read at `(p, q)`: the same sum. -/
theorem matmul_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    matmul d prec A B (constant ⟨2, ![m, n]⟩ .f32 0x00000000#32) (ix2 p q) = ∑ c : Fin k, A (ix2 p c) * B (ix2 c q) := by
  rw [matmul_zero_eq_dotGeneral]
  exact dotGeneral_plain_apply d hd prec A B p q

end Cert.LibKeepdims

end
-- ==== Proof.KernelTile.lean ====
/-
  The kernel body's value on a pair of 512-row tiles is the tile of pairwise row distances.

  At an output position (p, q) the body computes, one operation at a time:
  the product of the first tile with the transpose of the second, accumulated from the zero word, which is
  ∑ k, xi (p, k) * xj (q, k) (rounding an operand to the narrower format changes nothing on the extended reals,
  and the transposed second tile read at (k, q) is the tile at (q, k));
  the lane sums ∑ k, xi (p, k) * xi (p, k) and ∑ k, xj (q, k) * xj (q, k), each from the neutral accumulator;
  the first kept as a column and laid over the columns, the second kept as a column, turned into a row and laid
  over the rows, so that at (p, q) they are row p's and row q's squared norms;
  the combination (|xi_p|² + |xj_q|²) − 2 · (xi_p · xj_q) clamped below at the zero word;
  and the root of that number where it exceeds the zero word (the root of the word of one elsewhere), replaced
  by the zero word where it does not.
-/
import proofs.«142421_j46308337386061_1_alg».proof.Proof.Gen.KernelIdeal.Skeleton
import proofs.«142421_j46308337386061_1_alg».proof.Proof.Spec
import proofs.«142421_j46308337386061_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelTile

open Cert.KernelIdeal Cert.KernelIdeal.Facts₀ Cert.LibKeepdims
open Idealize.ShloMosaic Idealize.ShloMosaic.ValueIdx Idealize.SL.Sem

/-! ## The product of the first tile with the transposed second -/

/-- Axis 0 of the left operand is the result's row. -/
theorem lhs_mm_0 (i : S512x512.Idx) (c : dot_S512x512_S512x512_S512x512_1_0_0_1_n_n.contr.Idx) :
    (dot_S512x512_S512x512_S512x512_1_0_0_1_n_n.lhsIdx i c 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl

/-- Axis 1 of the left operand is the contracted one. -/
theorem lhs_mm_1 (i : S512x512.Idx) (c : dot_S512x512_S512x512_S512x512_1_0_0_1_n_n.contr.Idx) :
    (dot_S512x512_S512x512_S512x512_1_0_0_1_n_n.lhsIdx i c 1).val = (c ⟨0, by decide⟩).val :=
  dot_S512x512_S512x512_S512x512_1_0_0_1_n_n.lhsIdx_val_of_single rfl i c

/-- Axis 0 of the right operand is the contracted one. -/
theorem rhs_mm_0 (i : S512x512.Idx) (c : dot_S512x512_S512x512_S512x512_1_0_0_1_n_n.contr.Idx) :
    (dot_S512x512_S512x512_S512x512_1_0_0_1_n_n.rhsIdx i c 0).val = (c ⟨0, by decide⟩).val :=
  dot_S512x512_S512x512_S512x512_1_0_0_1_n_n.rhsIdx_val_of_single rfl i c

/-- Axis 1 of the right operand is the result's column. -/
theorem rhs_mm_1 (i : S512x512.Idx) (c : dot_S512x512_S512x512_S512x512_1_0_0_1_n_n.contr.Idx) :
    (dot_S512x512_S512x512_S512x512_1_0_0_1_n_n.rhsIdx i c 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- The product into a zero accumulator, read at (p, q): row p of the left operand against column q of the right. -/
theorem matmul_apply (A B : FVec Ideal S512x512 .bf16) (p q : Fin 512) :
    matmul dot_S512x512_S512x512_S512x512_1_0_0_1_n_n none A B (constant (F := Ideal) S512x512 .f32 0x00000000#32) (ix2 p q)
      = ∑ k : Fin 512, A (ix2 p k) * B (ix2 k q) := by
  simp only [matmul]
  rw [Ideal.matmul_constant_zero_apply,
    ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q)
      ((contrEquiv1 dot_S512x512_S512x512_S512x512_1_0_0_1_n_n 512 rfl rfl).symm k) = ix2 p k :=
    funext fun a => Fin.ext (by
      match a with
      | ⟨0, _⟩ => exact lhs_mm_0 _ _
      | ⟨1, _⟩ => exact (lhs_mm_1 _ _).trans hk)
  have er : dot_S512x512_S512x512_S512x512_1_0_0_1_n_n.rhsIdx (ix2 p q)
      ((contrEquiv1 dot_S512x512_S512x512_S512x512_1_0_0_1_n_n 512 rfl rfl).symm k) = ix2 k q :=
    funext fun a => Fin.ext (by
      match a with
      | ⟨0, _⟩ => exact (rhs_mm_0 _ _).trans hk
      | ⟨1, _⟩ => exact rhs_mm_1 _ _)
  rw [el, er]

/-- The body's product: the rounded first tile against the transposed rounded second, at (p, q) the inner product
    of row p of the first with row q of the second. -/
theorem gram_apply (xi xj : FVec Ideal S512x512 .f32) (p q : Fin 512) :
    matmul dot_S512x512_S512x512_S512x512_1_0_0_1_n_n none (truncf .bf16 xi bitsLt_bf16_f32)
        (transpose S512x512 [1, 0] (truncf .bf16 xj bitsLt_bf16_f32) transposes_S512x512_p1_0_S512x512)
        (constant (F := Ideal) S512x512 .f32 0x00000000#32) (ix2 p q)
      = ∑ k : Fin 512, xi (ix2 p k) * xj (ix2 q k) := by
  refine (matmul_apply _ _ p q).trans (Finset.sum_congr rfl fun k _ => ?_)
  exact congrArg (xi (ix2 p k) * ·)
    (transpose_ix2_apply (truncf .bf16 xj bitsLt_bf16_f32) transposes_S512x512_p1_0_S512x512 k q)

/-! ## The squared norms of the rows, as a column and as a row -/

/-- The lane sum of the squares, from the neutral accumulator, at row r. -/
theorem sumsq_apply (x : FVec Ideal S512x512 .f32) (r : Fin 512) :
    multiReduction .add [1] S512 (mulf x x) 0x00000000#32 reduces_S512x512_S512 (.inl rfl) rfl (ix1 r)
      = ∑ k : Fin 512, x (ix2 r k) * x (ix2 r k) := by
  refine (Ideal.multiReduction_add_single (mulf x x) 0x00000000#32 reduces_S512x512_S512 (.inl rfl) rfl (ix1 r)).trans ?_
  exact Finset.sum_congr rfl fun k _ => congrArg (fun j => x j * x j) (lift_ix1 reduces_S512x512_S512 r k)

/-- Kept as a column and laid over the columns: at (p, q), row p's squared norm. -/
theorem col_apply (x : FVec Ideal S512x512 .f32) (p q : Fin 512) :
    broadcastTo S512x512 (shapeCast S512x1
        (multiReduction .add [1] S512 (mulf x x) 0x00000000#32 reduces_S512x512_S512 (.inl rfl) rfl)
        shapeCasts_S512_S512x1) broadcasts_S512x1_S512x512 (ix2 p q)
      = ∑ k : Fin 512, x (ix2 p k) * x (ix2 p k) := by
  refine (broadcastTo_a1_ab_apply _ broadcasts_S512x1_S512x512 p q).trans ?_
  refine (shapeCast_a_a1_apply _ shapeCasts_S512_S512x1 p 0).trans ?_
  exact sumsq_apply x p

/-- Kept as a column, turned into a row and laid over the rows: at (p, q), row q's squared norm. -/
theorem row_apply (x : FVec Ideal S512x512 .f32) (p q : Fin 512) :
    broadcastTo S512x512 (transpose S1x512 [1, 0] (shapeCast S512x1
        (multiReduction .add [1] S512 (mulf x x) 0x00000000#32 reduces_S512x512_S512 (.inl rfl) rfl)
        shapeCasts_S512_S512x1) transposes_S512x1_p1_0_S1x512) broadcasts_S1x512_S512x512 (ix2 p q)
      = ∑ k : Fin 512, x (ix2 q k) * x (ix2 q k) := by
  refine (broadcastTo_1b_ab_apply _ broadcasts_S1x512_S512x512 p q).trans ?_
  refine (transpose_ix2_apply _ transposes_S512x1_p1_0_S1x512 (0 : Fin 1) q).trans ?_
  refine (shapeCast_a_a1_apply _ shapeCasts_S512_S512x1 q 0).trans ?_
  exact sumsq_apply x q

/-! ## The body -/

/-- A square root taken element by element. -/
theorem sqrt_apply {s : Shape} {φ : FTy} (a : FVec Ideal s φ) (i : s.Idx) : sqrt a i = Ideal.sqrt (a i) := rfl

/-- The body's value on two tiles is the tile of row distances. -/
theorem pay_eq (xi xj : Vec Ideal Cert.KernelIdeal.S512x512 .f32) :
    Cert.KernelIdeal.Gen.k0_pay1 (F := Ideal) xi xj = Cert.Dist.tileDist xi xj := by
  funext y
  obtain ⟨p, q, rfl⟩ : ∃ (p q : Fin 512), y = ix2 p q := ⟨y 0, y 1, eq_ix2 y⟩
  have hc := col_apply xi p q
  have hr := row_apply xj p q
  have hg := gram_apply xi xj p q
  unfold Cert.KernelIdeal.Gen.k0_pay1
  simp only [select_apply, cmpf_apply, maximumf_apply, subf_apply, addf_apply, mulf_apply, broadcast_apply, sqrt_apply]
  rw [hc, hr, hg]
  rfl

end Cert.KernelTile

end
-- ==== Proof.KernelIdealValue.lean ====
/-
  The output array of the idealized pairwise-distance kernel, after the run, is the distance matrix of the rows of `x`.

  At grid point `(i, j)` the body is handed row tile `i` of `x` in its first staging buffer and row tile `j` in its
  second, and stores the `512 × 512` tile whose entry `(p, q)` is the distance of row `p` of the first tile from row
  `q` of the second: the distance of rows `512 i + p` and `512 j + q` of `x`. That is entry
  `(512 i + p, 512 j + q)` of the distance matrix, which is where the write-back of point `(i, j)` puts it. So what
  every point writes back is its own block of one function of `x`. The 64 blocks are all the `512 × 512` tiles of the
  `4096 × 4096` array (row `r` lies in tile `r / 512`), so after the last write-back the array holds that function
  everywhere.
-/
import proofs.«142421_j46308337386061_1_alg».proof.Proof.KernelIdealFrame
import proofs.«142421_j46308337386061_1_alg».proof.Proof.KernelTile
import proofs.«142421_j46308337386061_1_alg».proof.Proof.Spec
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm

variable (m : (ℓ : Loc nD τ sig) → Buf (Elt Ideal) ℓ) (ρ : Dev nD → PrngReg)

/-- The input matrix on core `c`, as launched. -/
abbrev xOf (c : Dev nD) : S4096x512.Idx → EReal := m ((c : Thread nD τ).loc main_arg0)

theorem origin : (![0, 0] : Fin 2 → Nat) = fun _ => 0 := funext fun a => by fin_cases a <;> rfl

/-- Which tiles a grid point works on: the first input's row tile is the output tile's row, the second input's row
    tile is the output tile's column, both inputs take the full width, and the output tile's coordinates are below 8. -/
theorem tiles_of_point : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every output tile is some point's. -/
theorem every_tile : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- Row `p` of the first input's tile at point `t` is the row of `x` that the output tile's entry `j` stands in. -/
theorem first_tile_row (c : Dev nD) (t : Fin cfg0.N) (j : S512x512.Idx) (k : Fin 512) :
    tile m c 0 t (ix2 (j 0) k) = xOf m c (ix2 ((((cfg0.win 2).blk t).view.emb j) 0) k) := by
  obtain ⟨e0, e1, -, -, -, -⟩ := tiles_of_point t
  show xOf m c (((cfg0.win 0).blk t).view.emb (ix2 (j 0) k)) = _
  refine congrArg (xOf m c) (funext fun a => Fin.ext ?_)
  match a with
  | ⟨0, _⟩ => show win0_0.index t (0 : Fin 2) * 512 + 1 * (j 0).val = win0_2.index t (0 : Fin 2) * 512 + 1 * (j 0).val; omega
  | ⟨1, _⟩ => show win0_0.index t (1 : Fin 2) * 512 + 1 * k.val = k.val; omega

/-- Row `q` of the second input's tile is the row of `x` numbered by the output entry's column. -/
theorem second_tile_row (c : Dev nD) (t : Fin cfg0.N) (j : S512x512.Idx) (k : Fin 512) :
    tile m c 1 t (ix2 (j 1) k) = xOf m c (ix2 ((((cfg0.win 2).blk t).view.emb j) 1) k) := by
  obtain ⟨-, -, e2, e3, -, -⟩ := tiles_of_point t
  show xOf m c (((cfg0.win 1).blk t).view.emb (ix2 (j 1) k)) = _
  refine congrArg (xOf m c) (funext fun a => Fin.ext ?_)
  match a with
  | ⟨0, _⟩ => show win0_1.index t (0 : Fin 2) * 512 + 1 * (j 1).val = win0_2.index t (1 : Fin 2) * 512 + 1 * (j 1).val; omega
  | ⟨1, _⟩ => show win0_1.index t (1 : Fin 2) * 512 + 1 * k.val = k.val; omega

/-- What point `t` writes back is block `t` of the distance matrix of `x`. -/
theorem written_back (c : Dev nD) (t : Fin cfg0.N) :
    (dats m 0 c).flushed 2 t = ((cfg0.win 2).blk t).view.read (Elt Ideal) (Cert.Dist.dist (xOf m c)) := by
  show (cfg0.win 2).cut (grid0.coords t) ((dats m 0 c).after 2 t) = _
  rw [after_2]
  unfold outTile
  rw [View.canon_unit_zero origin]
  simp only [View.ld_unit_zero (S := S512x512) origin]
  rw [Cert.KernelTile.pay_eq]
  funext j
  show Cert.Dist.rowDist (fun k => tile m c 0 t (ix2 (j 0) k)) (fun k => tile m c 1 t (ix2 (j 1) k))
    = Cert.Dist.rowDist (fun k => xOf m c (ix2 ((((cfg0.win 2).blk t).view.emb j) 0) k))
        (fun k => xOf m c (ix2 ((((cfg0.win 2).blk t).view.emb j) 1) k))
  rw [funext (first_tile_row m c t j), funext (second_tile_row m c t j)]

/-- An index of the output array is in point `t`'s block iff each coordinate is in the block's range on its axis. -/
theorem in_tile (t : Fin cfg0.N) (i : S4096x4096.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

/-- The tiles cover the array: entry `(r, s)` lies in tile `(r / 512, s / 512)`. -/
theorem tiles_cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := every_tile ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [in_tile]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The output array after the run is the distance matrix of the rows of `x`. -/
theorem final (c : Dev nD) : (dats m 0 c).arrAt 2 cfg0.N = Cert.Dist.dist (xOf m c) :=
  (dats m 0 c).arrAt_eq_of_cover 2 (Cert.Dist.dist (xOf m c)) (fun t _ => written_back m c t) tiles_cover

/-- The run of the idealized kernel, read: it ends with the output at the distance matrix and `x` unchanged. -/
theorem run : θ_run defs (onTc (τ := τ) (main (F := Ideal))) ⟨m, fun _ => 0, ρ⟩ fun r => ∀ c : Dev nD,
      r.2.mem ((c : Thread nD τ).loc main_v0) = Cert.Dist.dist (xOf m c)
      ∧ r.2.mem ((c : Thread nD τ).loc main_arg0) = m ((c : Thread nD τ).loc main_arg0) :=
  (θ_run defs _ _).mono (fun r h c => ⟨(h c).1.trans (final m c), (h c).2⟩) (run_named m ρ)

end Cert.KernelIdeal.Whole

end
-- ==== Proof.RefDist.lean ====
/-
  The reference program's result is the distance matrix of the rows of its argument.

  Read one operation at a time, the reference computes at (n, m): the row sums ∑ k, x (n, k) * x (n, k) and
  ∑ k, x (m, k) * x (m, k), each started from the value of the zero word (which is the extended real zero, so
  the start disappears), laid out as a column and as a row and broadcast over the square; the contraction
  ∑ k, x (n, k) * x (m, k) of row n with row m; their combination (|x_n|² + |x_m|²) − 2 · (x_n · x_m)
  clamped below at the zero word; and the root of that number where it exceeds the zero word (the root of the
  word of one elsewhere), replaced by the zero word where it does not. The host's square root is the extended
  reals' one. The composed index functions of the broadcasts and of the contraction are the pairs (n, k) and
  (m, k), coordinate by coordinate, which is the specification's spelling of the two rows.
-/
import proofs.«142421_j46308337386061_1_alg».proof.Proof.Gen.ReferenceIdeal.Read
import proofs.«142421_j46308337386061_1_alg».proof.Proof.Spec

noncomputable section

namespace Cert.RefDist

open Cert.ReferenceIdeal Cert.ReferenceIdeal.Gen Cert.ReferenceIdeal.Read
open Idealize.ShloMosaic Idealize.ShloMosaic.ValueIdx Idealize.SL.Sem Idealize.ShloMosaic.StableHlo

/-- The reference's value at every index is the distance of the two rows the index names. -/
theorem ref_eq (x : (⟨Cert.ReferenceIdeal.S4096x512, .f32⟩ : BufTy).Contents (Elt Ideal)) :
    Cert.ReferenceIdeal.Read.val_main_v19 (F := Ideal) x = Cert.Dist.dist x := by
  funext i
  -- the column of squared norms read at (n, m) is row n's, the row of squared norms is row m's
  have ecol : ∀ k : Fin 512, idx_main_v1 (idx_main_v3 (idx_main_v5 i)) k = ix2 (i 0) k := fun k =>
    funext fun a => Fin.ext (by match a with | ⟨0, _⟩ => rfl | ⟨1, _⟩ => rfl)
  have erow : ∀ k : Fin 512, idx_main_v1 (idx_main_v4 (idx_main_v6 i)) k = ix2 (i 1) k := fun k =>
    funext fun a => Fin.ext (by match a with | ⟨0, _⟩ => rfl | ⟨1, _⟩ => rfl)
  -- the contraction pairs row n with row m
  have elhs : ∀ k : Fin 512, lidx_main_v2 i k = ix2 (i 0) k := fun k =>
    funext fun a => Fin.ext (by match a with | ⟨0, _⟩ => rfl | ⟨1, _⟩ => rfl)
  have erhs : ∀ k : Fin 512, ridx_main_v2 i k = ix2 (i 1) k := fun k =>
    funext fun a => Fin.ext (by match a with | ⟨0, _⟩ => rfl | ⟨1, _⟩ => rfl)
  rw [val_main_v19_apply, val_main_v17_apply, val_main_v18_apply, val_main_call1_v1_apply, val_main_call1_v0_apply,
    val_main_cst_5_apply, val_main_v16_apply, val_main_cst_4_apply, val_main_v15_apply, val_main_v14_apply,
    val_main_call0_v1_apply, val_main_call0_v0_apply, val_main_cst_3_apply, val_main_v13_apply, val_main_cst_2_apply,
    val_main_v12_apply, val_main_v11_apply, val_main_cst_1_apply, val_main_v10_apply, val_main_v9_apply,
    val_main_v8_apply, val_main_cst_0_apply, val_main_v2_apply, val_main_v7_apply, val_main_v5_apply, val_main_v6_apply,
    val_main_v3_apply, val_main_v4_apply, val_main_v1_apply, val_main_v1_apply, val_main_cst_apply]
  simp only [ecol, erow, elhs, erhs]
  -- the sums start from the value of the zero word, which is zero
  have hz : ∀ s : EReal, (FloatOps.ofBits (F := Ideal) .f32 0x00000000#32 : EReal) + s = s := fun s => by
    rw [Ideal.ofBits_def, Ideal.ofBits_zero_f32, zero_add]
  rw [hz, hz]
  rfl

end Cert.RefDist

end
-- ==== Proof.lean ====
/-
  Pairwise Euclidean distances of the rows of a matrix: a tiled kernel against the whole-matrix expression.

  For `x : [4096, 512]` both programs compute, at `(n, m)`,
  `√ max(|x_n|² + |x_m|² − 2 (x_n · x_m), 0)` where that maximum is positive and zero elsewhere. The reference forms the
  row norms, the Gram matrix and the rest over whole arrays. The kernel walks the `8 × 8` grid of `512 × 512` output
  tiles; at tile `(i, j)` it reads row tile `i` and row tile `j` of `x`, multiplies the first by the transpose of the
  second (operands narrowed to bf16, which on the extended reals is no change), adds the row norms of the two tiles as
  a column and a row, and applies the same clamp, guard and root. On the extended reals the two agree term by term:
  the same sums over the 512 columns in the same association, the same three literals; only the tiling differs. No
  finiteness of `x` is used.

  * The kernel's frame, at the word-level and at the ideal instance: one kernel region whose two input windows read
    the one array `x` (its share dealt between them) and whose output window tiles the result.
  * The idealization rewrote nothing, so the preservation claim has no conjunct.
  * The value claim: the kernel's output array after the run is the distance matrix of `x` (tile by tile, the tiles
    covering the array), and the reference's result, read one operation at a time, is the same function.
-/
import proofs.«142421_j46308337386061_1_alg».proof.Defs
import proofs.«142421_j46308337386061_1_alg».proof.Proof.Gen.Kernel
import proofs.«142421_j46308337386061_1_alg».proof.Proof.Gen.KernelIdeal
import proofs.«142421_j46308337386061_1_alg».proof.Proof.Gen.ReferenceIdeal
import proofs.«142421_j46308337386061_1_alg».proof.Proof.Gen.Pre_finite_inputs
import proofs.«142421_j46308337386061_1_alg».proof.Proof.Gen.ReferenceIdeal.Run
import proofs.«142421_j46308337386061_1_alg».proof.Proof.Gen.ReferenceIdeal.Read
import proofs.«142421_j46308337386061_1_alg».proof.Proof.KernelFrame
import proofs.«142421_j46308337386061_1_alg».proof.Proof.KernelIdealFrame
import proofs.«142421_j46308337386061_1_alg».proof.Proof.KernelIdealValue
import proofs.«142421_j46308337386061_1_alg».proof.Proof.RefDist
import Idealize.ShloMosaic.Adequacy
import Idealize.ShloMosaic.Init

noncomputable section

namespace Cert.Proof

open Idealize.ShloMosaic Idealize.ShloMosaic.TcCoe Idealize.SL.Sem

/-- The word-level kernel runs and leaves `x` unchanged. -/
theorem frame_kernel : Cert.frame_Kernel := fun m ρ _ => Cert.Kernel.Frm.frame m ρ

/-- So does the idealized kernel. -/
theorem frame_kernel_ideal : Cert.frame_KernelIdeal := fun m ρ _ => Cert.KernelIdeal.Frm.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the distance matrix of the rows of `x`. -/
theorem same_distances : Cert.algebraic_KernelIdeal_ReferenceIdeal := by
  intro m ρ m' ρ' _ hagree
  refine ⟨fun c => Cert.Dist.dist (Cert.KernelIdeal.Whole.xOf m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.RefDist.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, same_distances⟩

end Cert.Proof

end
